-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S128x40 .f32) (main_arg7 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x40 .f32 := Host.absf main_arg6
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S40 .f32 := Host.absf main_arg7
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S100000x128 .f32) (main_arg1 : IVec S600000 32) (main_arg2 : IVec S600000 32) (main_arg3 : FVec F S128x128 .f32) (main_arg4 : FVec F S128x128 .f32) (main_arg5 : FVec F S128 .f32) (main_arg6 : FVec F S128x40 .f32) (main_arg7 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S1x128 : Shape := ⟨2, ![1, 128]⟩
abbrev S1x40 : Shape := ⟨2, ![1, 40]⟩
abbrev S100000x40 : Shape := ⟨2, ![100000, 40]⟩
abbrev S2000x128 : Shape := ⟨2, ![2000, 128]⟩
abbrev S2000x40 : Shape := ⟨2, ![2000, 40]⟩

abbrev nBuf : Space → Nat
  | .hbm => 37
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S_, .i32⟩
  | .hbm, ⟨9, _⟩ => ⟨S600000, .i32⟩
  | .hbm, ⟨10, _⟩ => ⟨S600000, .i1⟩
  | .hbm, ⟨11, _⟩ => ⟨S_, .i32⟩
  | .hbm, ⟨12, _⟩ => ⟨S600000, .i32⟩
  | .hbm, ⟨13, _⟩ => ⟨S600000, .i32⟩
  | .hbm, ⟨14, _⟩ => ⟨S600000, .i32⟩
  | .hbm, ⟨15, _⟩ => ⟨S600000x1, .i32⟩
  | .hbm, ⟨16, _⟩ => ⟨S600000x128, .f32⟩
  | .hbm, ⟨17, _⟩ => ⟨S_, .f32⟩
  | .hbm, ⟨18, _⟩ => ⟨S100000x128, .f32⟩
  | .hbm, ⟨19, _⟩ => ⟨S600000x1, .i32⟩
  | .hbm, ⟨20, _⟩ => ⟨S100000x128, .f32⟩
  | .hbm, ⟨21, _⟩ => ⟨S_, .f32⟩
  | .hbm, ⟨22, _⟩ => ⟨S600000, .f32⟩
  | .hbm, ⟨23, _⟩ => ⟨S_, .f32⟩
  | .hbm, ⟨24, _⟩ => ⟨S100000, .f32⟩
  | .hbm, ⟨25, _⟩ => ⟨S600000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x128, .f32⟩
  | .hbm, ⟨32, _⟩ => ⟨S100000x128, .f32⟩
  | .hbm, ⟨33, _⟩ => ⟨S1x128, .f32⟩
  | .hbm, ⟨34, _⟩ => ⟨S1x40, .f32⟩
  | .hbm, ⟨35, _⟩ => ⟨S100000x40, .f32⟩
  | .hbm, ⟨36, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S128x40, .f32⟩
  | .local _ .vmem, ⟨8, _⟩ => ⟨S1x40, .f32⟩
  | .local _ .vmem, ⟨9, _⟩ => ⟨S2000x40, .f32⟩
  | .local _ .vmem, ⟨10, _⟩ => ⟨S2000x40, .f32⟩
  | .local _ .vmem, ⟨11, _⟩ => ⟨S2000x128, .f32⟩
  | .local _ .vmem, ⟨12, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21_0 : Ref sig .tc := ⟨.hbm, 35, rfl⟩
abbrev main_v21_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x40 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  shapeCasts_S40_S1x40 : S40.ShapeCasts S1x40
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S2000x128_S128x128_S2000x128_1_0_0_1_n_n_wf : DotDims.WF S2000x128 S128x128 S2000x128 [1] [0] [0] [1] [] []
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x40.size a ≤ S128x40.size a
  hwx0_5 : ∀ i : grid0.Coords, EltTy.bits .f32 = 32 ∨ (Rect.block (s := S128x40) S128x40.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x40.size a ≤ S1x40.size a
  hwx0_6 : ∀ i : grid0.Coords, EltTy.bits .f32 = 32 ∨ (Rect.block (s := S1x40) S1x40.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x40.size a ≤ S100000x40.size a
  hwx0_7 : ∀ i : grid0.Coords, EltTy.bits .f32 = 32 ∨ (Rect.block (s := S100000x40) S2000x40.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S100000x128.size a
  hwx0_8 : ∀ i : grid0.Coords, EltTy.bits .f32 = 32 ∨ (Rect.block (s := S100000x128) S2000x128.size (cc0_transform_8 i) (hinb0_8 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x40.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x40.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21_0) S2000x40.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v21_1) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S1x128 : Shape := ⟨2, ![1, 128]⟩
abbrev S100000x40 : Shape := ⟨2, ![100000, 40]⟩
abbrev S1x40 : Shape := ⟨2, ![1, 40]⟩

abbrev nBuf : Space → Nat
  | .hbm => 46
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S_, .i32⟩
  | .hbm, ⟨9, _⟩ => ⟨S600000, .i32⟩
  | .hbm, ⟨10, _⟩ => ⟨S600000, .i1⟩
  | .hbm, ⟨11, _⟩ => ⟨S_, .i32⟩
  | .hbm, ⟨12, _⟩ => ⟨S600000, .i32⟩
  | .hbm, ⟨13, _⟩ => ⟨S600000, .i32⟩
  | .hbm, ⟨14, _⟩ => ⟨S600000, .i32⟩
  | .hbm, ⟨15, _⟩ => ⟨S600000x1, .i32⟩
  | .hbm, ⟨16, _⟩ => ⟨S600000x128, .f32⟩
  | .hbm, ⟨17, _⟩ => ⟨S_, .f32⟩
  | .hbm, ⟨18, _⟩ => ⟨S100000x128, .f32⟩
  | .hbm, ⟨19, _⟩ => ⟨S600000x1, .i32⟩
  | .hbm, ⟨20, _⟩ => ⟨S100000x128, .f32⟩
  | .hbm, ⟨21, _⟩ => ⟨S_, .f32⟩
  | .hbm, ⟨22, _⟩ => ⟨S600000, .f32⟩
  | .hbm, ⟨23, _⟩ => ⟨S_, .f32⟩
  | .hbm, ⟨24, _⟩ => ⟨S100000, .f32⟩
  | .hbm, ⟨25, _⟩ => ⟨S600000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S100000x128, .f32⟩
  | .hbm, ⟨41, _⟩ => ⟨S100000x128, .f32⟩
  | .hbm, ⟨42, _⟩ => ⟨S100000x40, .f32⟩
  | .hbm, ⟨43, _⟩ => ⟨S1x40, .f32⟩
  | .hbm, ⟨44, _⟩ => ⟨S100000x40, .f32⟩
  | .hbm, ⟨45, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call0_cst : Ref sig .tc := ⟨.hbm, 39, rfl⟩
abbrev main_call0_v0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.Spec.lean ====
/-
  What both programs compute, written once over the real line extended by ±∞.

  A node's hidden row is the rectified sum of two dense layers and a bias: from the node's own feature row `a`
  and the mean row `b` of its in-neighbours' features,
      hidden unit q  =  max( (Σ_k a_k · Ws[k,q]  +  Σ_k b_k · Wn[k,q])  +  βn[q] ,  0 ),
  and its class scores are one more dense layer on that row,
      score c        =  Σ_k hidden_k · Wp[k,c]  +  βp[c].
  Each sum runs over the 128 features in one fixed order and the additions are grouped exactly as written, so
  no law of arithmetic is needed to compare two programs that both evaluate these formulas: only that they
  read the same entries. The per-row forms `hiddenUnit` and `score` take a row as a function of the feature
  index, so the same definition serves a whole array of 100000 nodes and a block of 2000 of them.
-/
import Idealize.ShloMosaic.PureOps.Ideal
import Idealize.ShloMosaic.Lib.ValueIdx

noncomputable section

namespace Cert.Sage

open Idealize.ShloMosaic Idealize.ShloMosaic.ValueIdx

/-- Hidden unit `q` of one node: its feature row `a` through `Ws` plus its neighbourhood-mean row `b` through `Wn`,
    plus the bias entry `β`, rectified at zero. -/
def hiddenUnit (a b : Fin 128 → EReal) (Ws Wn : FVec Ideal ⟨2, ![128, 128]⟩ .f32) (β : EReal) (q : Fin 128) : EReal :=
  max ((∑ k : Fin 128, a k * Ws (ix2 k q) + ∑ k : Fin 128, b k * Wn (ix2 k q)) + β) (Ideal.ofBits .f32 0x00000000#32)

/-- Class score `c` of one node from its hidden row `t`: the row through `Wp` plus the bias entry `β`. -/
def score (t : Fin 128 → EReal) (Wp : FVec Ideal ⟨2, ![128, 40]⟩ .f32) (β : EReal) (c : Fin 40) : EReal :=
  (∑ k : Fin 128, t k * Wp (ix2 k c)) + β

/-- The hidden activations of all 100000 nodes, entry by entry: row `i 0` of the features and of the
    neighbourhood means, unit `i 1`. -/
def hidden (feat h : FVec Ideal ⟨2, ![100000, 128]⟩ .f32) (Ws Wn : FVec Ideal ⟨2, ![128, 128]⟩ .f32)
    (bn : FVec Ideal ⟨1, ![128]⟩ .f32) : FVec Ideal ⟨2, ![100000, 128]⟩ .f32 :=
  fun i => hiddenUnit (fun k => feat (ix2 (n0 := 100000) (n1 := 128) (i 0) k)) (fun k => h (ix2 (n0 := 100000) (n1 := 128) (i 0) k))
    Ws Wn (bn (ix1 (n := 128) (i 1))) (i 1)

/-- The class scores of all 100000 nodes, entry by entry, from the hidden activations `t`. -/
def scores (t : FVec Ideal ⟨2, ![100000, 128]⟩ .f32) (Wp : FVec Ideal ⟨2, ![128, 40]⟩ .f32)
    (bp : FVec Ideal ⟨1, ![40]⟩ .f32) : FVec Ideal ⟨2, ![100000, 40]⟩ .f32 :=
  fun i => score (fun k => t (ix2 (n0 := 100000) (n1 := 128) (i 0) k)) Wp (bp (ix1 (n := 40) (i 1))) (i 1)

end Cert.Sage

end
-- ==== Proof.RefIsSpec.lean ====
/-
  The reference program, stage by stage, is the specification.

  The reference forms the in-neighbour mean `h` (a gather along the edges' sources, two scatter-adds along their
  targets, a division by the clamped in-degree) and then applies the two dense layers, the bias, the
  rectifier and the classifier as whole-array operations. Read at an entry (row r, unit q) the two
  `dot_general`s are the sums over the 128 features of row r against column q, the bias is broadcast from its
  one row, and the rectifier compares with a broadcast zero: exactly `Sage.hidden` at that entry, with `h` the
  aggregation stage as it stands (it is never opened: the kernel's program computes the same stage from the
  same inputs). The classifier on top is `Sage.scores` of that.
-/
import proofs.«173739_j57844619542595_1_alg».proof.Proof.Gen.ReferenceIdeal.Read
import proofs.«173739_j57844619542595_1_alg».proof.Proof.Spec

noncomputable section

namespace Cert.Sage.Ref

open Cert.ReferenceIdeal Cert.ReferenceIdeal.Read Idealize.ShloMosaic Idealize.ShloMosaic.TcCoe Idealize.ShloMosaic.ValueIdx

/-! ## The index functions of the generated stages, as coordinates -/

theorem lidx19 (i : S100000x128.Idx) (k : Fin 128) : lidx_main_v19 i k = ix2 (n0 := 100000) (n1 := 128) (i 0) k :=
  funext fun a => Fin.ext (by match a with | ⟨0, _⟩ => rfl | ⟨1, _⟩ => rfl)
theorem ridx19 (i : S100000x128.Idx) (k : Fin 128) : ridx_main_v19 i k = ix2 (n0 := 128) (n1 := 128) k (i 1) :=
  funext fun a => Fin.ext (by match a with | ⟨0, _⟩ => rfl | ⟨1, _⟩ => rfl)
theorem lidx20 (i : S100000x128.Idx) (k : Fin 128) : lidx_main_v20 i k = ix2 (n0 := 100000) (n1 := 128) (i 0) k :=
  funext fun a => Fin.ext (by match a with | ⟨0, _⟩ => rfl | ⟨1, _⟩ => rfl)
theorem ridx20 (i : S100000x128.Idx) (k : Fin 128) : ridx_main_v20 i k = ix2 (n0 := 128) (n1 := 128) k (i 1) :=
  funext fun a => Fin.ext (by match a with | ⟨0, _⟩ => rfl | ⟨1, _⟩ => rfl)
theorem lidx26 (i : S100000x40.Idx) (k : Fin 128) : lidx_main_v26 i k = ix2 (n0 := 100000) (n1 := 128) (i 0) k :=
  funext fun a => Fin.ext (by match a with | ⟨0, _⟩ => rfl | ⟨1, _⟩ => rfl)
theorem ridx26 (i : S100000x40.Idx) (k : Fin 128) : ridx_main_v26 i k = ix2 (n0 := 128) (n1 := 40) k (i 1) :=
  funext fun a => Fin.ext (by match a with | ⟨0, _⟩ => rfl | ⟨1, _⟩ => rfl)
theorem bidx23 (i : S100000x128.Idx) : idx_main_v22 (idx_main_v23 i) = ix1 (n := 128) (i 1) :=
  funext fun a => Fin.ext (by match a with | ⟨0, _⟩ => rfl)
theorem bidx28 (i : S100000x40.Idx) : idx_main_v27 (idx_main_v28 i) = ix1 (n := 40) (i 1) :=
  funext fun a => Fin.ext (by match a with | ⟨0, _⟩ => rfl)

/-! ## The two results -/

/-- The reference's rectified hidden layer is `Sage.hidden` of the features, the aggregation stage, the two weight
    matrices and the bias. -/
theorem hidden_eq (x0 : (⟨S100000x128, .f32⟩ : BufTy).Contents (Elt Ideal)) (x1 x2 : (⟨S600000, .i32⟩ : BufTy).Contents (Elt Ideal))
    (x3 x4 : (⟨S128x128, .f32⟩ : BufTy).Contents (Elt Ideal)) (x5 : (⟨S128, .f32⟩ : BufTy).Contents (Elt Ideal)) :
    val_main_v25 (F := Ideal) x0 x1 x2 x3 x4 x5 = Sage.hidden x0 (val_main_v18 (F := Ideal) x0 x1 x2) x3 x4 x5 := by
  funext i
  rw [val_main_v25_apply, val_main_v24_apply, val_main_v21_apply, val_main_v19_apply, val_main_v20_apply,
    val_main_v23_apply, val_main_v22_apply, val_main_call0_v0_apply, val_main_call0_cst_apply]
  simp only [lidx19, ridx19, lidx20, ridx20, bidx23]
  rfl

/-- The reference's class scores are `Sage.scores` of its hidden layer, the classifier matrix and its bias. -/
theorem scores_eq (x0 : (⟨S100000x128, .f32⟩ : BufTy).Contents (Elt Ideal)) (x1 x2 : (⟨S600000, .i32⟩ : BufTy).Contents (Elt Ideal))
    (x3 x4 : (⟨S128x128, .f32⟩ : BufTy).Contents (Elt Ideal)) (x5 : (⟨S128, .f32⟩ : BufTy).Contents (Elt Ideal))
    (x6 : (⟨S128x40, .f32⟩ : BufTy).Contents (Elt Ideal)) (x7 : (⟨S40, .f32⟩ : BufTy).Contents (Elt Ideal)) :
    val_main_v29 (F := Ideal) x0 x1 x2 x3 x4 x5 x6 x7 = Sage.scores (val_main_v25 (F := Ideal) x0 x1 x2 x3 x4 x5) x6 x7 := by
  funext i
  rw [val_main_v29_apply, val_main_v26_apply, val_main_v28_apply, val_main_v27_apply]
  simp only [lidx26, ridx26, bidx28]
  rfl

end Cert.Sage.Ref

end
-- ==== Proof.KernelBlock.lean ====
/-
  The kernel body on one block of 2000 nodes, read entry by entry.

  The body stores two values. The first is the rectified sum of the block's feature rows through `Ws`, its
  neighbourhood-mean rows through `Wn` and the bias row: at row `p`, unit `q` this is `Sage.hiddenUnit` of
  row `p` of the two loaded blocks. The second is that stored value through `Wp` plus the second bias row: at
  row `p`, class `c` this is `Sage.score` of row `p` of the first. Read over the extended reals a change of
  float format is the identity and a matrix product into a zero accumulator is the plain sum over the
  contracted axis, so each entry depends on one row of each block only.
-/
import proofs.«173739_j57844619542595_1_alg».proof.Proof.Gen.KernelIdeal.Skeleton
import proofs.«173739_j57844619542595_1_alg».proof.Proof.Spec
import Idealize.ShloMosaic.Lib.Pipeline.Value
import Idealize.ShloMosaic.Lib.ValueIdx
import Idealize.ShloMosaic.PureOps.Ideal.Laws

noncomputable section

namespace Cert.Sage.Block

open Cert.KernelIdeal Cert.KernelIdeal.Gen Idealize.ShloMosaic Idealize.ShloMosaic.TcCoe Idealize.ShloMosaic.ValueIdx

/-! ## The two matrix products as sums over the 128 contracted features -/

theorem lhs_sq_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_sq_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_sq_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_sq_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block of 2000 rows times a 128 × 128 matrix, into a zero accumulator: entry (p, q) is row p against column q. -/
theorem matmul_sq_apply (a : FVec Ideal S2000x128 .bf16) (w : FVec Ideal S128x128 .bf16) (p : Fin 2000) (q : Fin 128) :
    matmul dot_S2000x128_S128x128_S2000x128_1_0_0_1_n_n none a w (constant (F := Ideal) S2000x128 .f32 0x00000000#32) (ix2 p q)
      = ∑ k : Fin 128, a (ix2 p k) * w (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_sq_0 _ _
    | ⟨1, _⟩ => exact (lhs_sq_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_sq_0 _ _).trans hk
    | ⟨1, _⟩ => exact rhs_sq_1 _ _)
  rw [el, er]

theorem lhs_cls_0 (i : S2000x40.Idx) (q : dot_S2000x128_S128x40_S2000x40_1_0_0_1_n_n.contr.Idx) :
    (dot_S2000x128_S128x40_S2000x40_1_0_0_1_n_n.lhsIdx i q 0).val = (i 0).val := by
  unfold DotDims.lhsIdx
  rw [dif_neg (show ¬(0 : Fin S2000x128.rank) ∈ dot_S2000x128_S128x40_S2000x40_1_0_0_1_n_n.lhsBatch by decide), dif_pos (show (0 : Fin S2000x128.rank) ∈ dot_S2000x128_S128x40_S2000x40_1_0_0_1_n_n.lhsNonContracting by decide)]
  rfl
theorem lhs_cls_1 (i : S2000x40.Idx) (q : dot_S2000x128_S128x40_S2000x40_1_0_0_1_n_n.contr.Idx) :
    (dot_S2000x128_S128x40_S2000x40_1_0_0_1_n_n.lhsIdx i q 1).val = (q ⟨0, by decide⟩).val :=
  dot_S2000x128_S128x40_S2000x40_1_0_0_1_n_n.lhsIdx_val_of_single rfl i q
theorem rhs_cls_0 (i : S2000x40.Idx) (q : dot_S2000x128_S128x40_S2000x40_1_0_0_1_n_n.contr.Idx) :
    (dot_S2000x128_S128x40_S2000x40_1_0_0_1_n_n.rhsIdx i q 0).val = (q ⟨0, by decide⟩).val :=
  dot_S2000x128_S128x40_S2000x40_1_0_0_1_n_n.rhsIdx_val_of_single rfl i q
theorem rhs_cls_1 (i : S2000x40.Idx) (q : dot_S2000x128_S128x40_S2000x40_1_0_0_1_n_n.contr.Idx) :
    (dot_S2000x128_S128x40_S2000x40_1_0_0_1_n_n.rhsIdx i q 1).val = (i 1).val := by
  unfold DotDims.rhsIdx
  rw [dif_neg (show ¬(1 : Fin S128x40.rank) ∈ dot_S2000x128_S128x40_S2000x40_1_0_0_1_n_n.rhsBatch by decide), dif_pos (show (1 : Fin S128x40.rank) ∈ dot_S2000x128_S128x40_S2000x40_1_0_0_1_n_n.rhsNonContracting by decide)]
  rfl

/-- A block of 2000 rows times the 128 × 40 classifier matrix, into a zero accumulator: entry (p, c) is row p against column c. -/
theorem matmul_cls_apply (a : FVec Ideal S2000x128 .bf16) (w : FVec Ideal S128x40 .bf16) (p : Fin 2000) (c : Fin 40) :
    matmul dot_S2000x128_S128x40_S2000x40_1_0_0_1_n_n none a w (constant (F := Ideal) S2000x40 .f32 0x00000000#32) (ix2 p c)
      = ∑ k : Fin 128, a (ix2 p k) * w (ix2 k c) := by
  simp only [matmul]
  rw [Ideal.matmul_constant_zero_apply, ← Equiv.sum_comp (ValueIdx.contrEquiv1 dot_S2000x128_S128x40_S2000x40_1_0_0_1_n_n 128 rfl rfl).symm]
  refine Finset.sum_congr rfl fun k _ => ?_
  have hk := ValueIdx.contrEquiv1_symm_val dot_S2000x128_S128x40_S2000x40_1_0_0_1_n_n 128 rfl rfl k
  have el : dot_S2000x128_S128x40_S2000x40_1_0_0_1_n_n.lhsIdx (ix2 p c) ((ValueIdx.contrEquiv1 dot_S2000x128_S128x40_S2000x40_1_0_0_1_n_n 128 rfl rfl).symm k) = ix2 p k := funext fun a => Fin.ext (by
    match a with
    | ⟨0, _⟩ => exact lhs_cls_0 _ _
    | ⟨1, _⟩ => exact (lhs_cls_1 _ _).trans hk)
  have er : dot_S2000x128_S128x40_S2000x40_1_0_0_1_n_n.rhsIdx (ix2 p c) ((ValueIdx.contrEquiv1 dot_S2000x128_S128x40_S2000x40_1_0_0_1_n_n 128 rfl rfl).symm k) = ix2 k c := funext fun a => Fin.ext (by
    match a with
    | ⟨0, _⟩ => exact (rhs_cls_0 _ _).trans hk
    | ⟨1, _⟩ => exact rhs_cls_1 _ _)
  rw [el, er]

/-! ## A bias row laid over every row of the block -/

/-- The one-row bias [1, 128] broadcast over 2000 rows reads its entry of the same column. -/
theorem bias_row128 (x : FVec Ideal S1x128 .f32) (h : S1x128.Broadcasts S2000x128) (p : Fin 2000) (q : Fin 128) :
    broadcastTo S2000x128 x h (ix2 p q) = x (ix2 0 q) :=
  broadcastTo_apply x h (ix2 p q) (ix2 0 q) (fun a => by
    match a with
    | ⟨0, _⟩ => rfl
    | ⟨1, _⟩ => rfl)

/-- The one-row bias [1, 40] broadcast over 2000 rows reads its entry of the same column. -/
theorem bias_row40 (x : FVec Ideal S1x40 .f32) (h : S1x40.Broadcasts S2000x40) (p : Fin 2000) (c : Fin 40) :
    broadcastTo S2000x40 x h (ix2 p c) = x (ix2 0 c) :=
  broadcastTo_apply x h (ix2 p c) (ix2 0 c) (fun a => by
    match a with
    | ⟨0, _⟩ => rfl
    | ⟨1, _⟩ => rfl)

/-! ## The two stored values, entry by entry -/

/-- The first stored value at row `p`, unit `q`: the hidden unit of row `p` of the two loaded blocks. -/
theorem hidden_entry (x0 x1 : FVec Ideal S2000x128 .f32) (x2 x3 : FVec Ideal S128x128 .f32) (x4 : FVec Ideal S1x128 .f32)
    (p : Fin 2000) (q : Fin 128) :
    k0_pay1 (F := Ideal) x0 x1 x2 x3 x4 (ix2 p q)
      = Sage.hiddenUnit (fun k => x0 (ix2 p k)) (fun k => x1 (ix2 p k)) x2 x3 (x4 (ix2 0 q)) q := by
  unfold k0_pay1 Sage.hiddenUnit
  show max ((matmul dot_S2000x128_S128x128_S2000x128_1_0_0_1_n_n none (truncf .bf16 x0 bitsLt_bf16_f32) (truncf .bf16 x2 bitsLt_bf16_f32) (constant (F := Ideal) S2000x128 .f32 0x00000000#32) (ix2 p q)
      + matmul dot_S2000x128_S128x128_S2000x128_1_0_0_1_n_n none (truncf .bf16 (shapeCast S2000x128 x1 shapeCasts_S2000x128_S2000x128) bitsLt_bf16_f32) (truncf .bf16 x3 bitsLt_bf16_f32) (constant (F := Ideal) S2000x128 .f32 0x00000000#32) (ix2 p q))
      + broadcastTo S2000x128 (shapeCast S1x128 x4 shapeCasts_S1x128_S1x128) broadcasts_S1x128_S2000x128 (ix2 p q)) (Ideal.ofBits .f32 0x00000000#32) = _
  rw [matmul_sq_apply, matmul_sq_apply, bias_row128, shapeCast_self, shapeCast_self]
  rfl

/-- The second stored value at row `p`, class `c`: the score of row `p` of the first stored value. -/
theorem score_entry (x0 x1 : FVec Ideal S2000x128 .f32) (x2 x3 : FVec Ideal S128x128 .f32) (x4 : FVec Ideal S1x128 .f32)
    (x5 : FVec Ideal S128x40 .f32) (x6 : FVec Ideal S1x40 .f32) (p : Fin 2000) (c : Fin 40) :
    k0_pay2 (F := Ideal) x0 x1 x2 x3 x4 x5 x6 (ix2 p c)
      = Sage.score (fun k => k0_pay1 (F := Ideal) x0 x1 x2 x3 x4 (ix2 p k)) x5 (x6 (ix2 0 c)) c := by
  unfold k0_pay2 Sage.score
  show matmul dot_S2000x128_S128x40_S2000x40_1_0_0_1_n_n none (truncf .bf16 (k0_pay1 (F := Ideal) x0 x1 x2 x3 x4) bitsLt_bf16_f32) (truncf .bf16 x5 bitsLt_bf16_f32) (constant (F := Ideal) S2000x40 .f32 0x00000000#32) (ix2 p c)
      + broadcastTo S2000x40 (shapeCast S1x40 x6 shapeCasts_S1x40_S1x40) broadcasts_S1x40_S2000x40 (ix2 p c) = _
  rw [matmul_cls_apply, bias_row40, shapeCast_self]
  rfl

end Cert.Sage.Block

end
-- ==== Proof.HostPrefix.lean ====
/-
  What the kernel's program has computed on the host when its one launch begins.

  Before the launch the program forms the in-neighbour mean of the features — a gather along the edges'
  sources, a scatter-add of the gathered rows and of ones along the edges' targets, a division by the in-degree
  clamped at one — and lays each bias vector out as a one-row matrix. The operations, their order and every
  literal are those of the reference program, so the mean the launch reads is the reference's own aggregation
  stage of the same three inputs, by definition; and a vector laid out as one row is read back at (0, q) as
  its entry q. Neither the gather nor the scatter is ever opened.
-/
import proofs.«173739_j57844619542595_1_alg».proof.Proof.Gen.KernelIdeal.Frame
import proofs.«173739_j57844619542595_1_alg».proof.Proof.Gen.ReferenceIdeal.Read
import Idealize.ShloMosaic.Lib.StableHlo.Run
import Idealize.ShloMosaic.Lib.ValueLayout

noncomputable section

namespace Cert.Sage.Host

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxHeartbeats 4000000 in
/-- The neighbourhood-mean array the launch reads is the reference's aggregation stage of the features and the
    edges' two index vectors. -/
theorem mean_eq (c : Dev nD) : (V m c main_v18 : S100000x128.Idx → EReal)
    = Cert.ReferenceIdeal.Read.val_main_v18 (F := Ideal) (m ((c : Thread nD τ).loc main_arg0))
        (m ((c : Thread nD τ).loc main_arg1)) (m ((c : Thread nD τ).loc main_arg2)) := by
  show StableHlo.after (hostOps0 (F := Ideal)) (fun b => m (c, b)) (Proc.devRef .tc main_v18) = _
  simp only [hostOps0]
  after_results_simp
  rfl

set_option maxHeartbeats 4000000 in
/-- The first bias as the launch reads it: the 128-vector laid out as one row. -/
theorem bias_hidden_eq (c : Dev nD) : (V m c main_v19 : S1x128.Idx → EReal)
    = shapeCast S1x128 (m ((c : Thread nD τ).loc main_arg5)) shapeCasts_S128_S1x128 := by
  show StableHlo.after (hostOps0 (F := Ideal)) (fun b => m (c, b)) (Proc.devRef .tc main_v19) = _
  simp only [hostOps0]
  after_results_simp
  rfl

set_option maxHeartbeats 4000000 in
/-- The second bias as the launch reads it: the 40-vector laid out as one row. -/
theorem bias_scores_eq (c : Dev nD) : (V m c main_v20 : S1x40.Idx → EReal)
    = shapeCast S1x40 (m ((c : Thread nD τ).loc main_arg7)) shapeCasts_S40_S1x40 := by
  show StableHlo.after (hostOps0 (F := Ideal)) (fun b => m (c, b)) (Proc.devRef .tc main_v20) = _
  simp only [hostOps0]
  after_results_simp
  rfl

/-- Entry (0, q) of the first bias row is entry q of the bias vector. -/
theorem bias_hidden_apply (c : Dev nD) (q : Fin 128) :
    (V m c main_v19 : S1x128.Idx → EReal) (ix2 (0 : Fin 1) q) = m ((c : Thread nD τ).loc main_arg5) (ix1 q) := by
  rw [bias_hidden_eq]
  exact shapeCast_a_1a_apply _ _ 0 q

/-- Entry (0, c') of the second bias row is entry c' of the bias vector. -/
theorem bias_scores_apply (c : Dev nD) (c' : Fin 40) :
    (V m c main_v20 : S1x40.Idx → EReal) (ix2 (0 : Fin 1) c') = m ((c : Thread nD τ).loc main_arg7) (ix1 c') := by
  rw [bias_scores_eq]
  exact shapeCast_a_1a_apply _ _ 0 c'

end Cert.Sage.Host

end
-- ==== Proof.KernelValue.lean ====
/-
  The kernel's two result arrays after its launch, as whole-array functions of the inputs.

  The launch walks the 100000 nodes in 50 blocks of 2000 rows. At block `t` it loads rows
  2000·t … 2000·t + 1999 of the features and of the neighbourhood means, the three weight matrices and the two
  bias rows whole, and writes back the same rows of the hidden layer and of the class scores. By the entry
  formulas of the body (one row of each loaded block per entry) what block `t` writes at its row `p` is the
  specification's value at array row 2000·t + p: each written block is the restriction of ONE whole-array
  function, `Sage.hidden` resp. `Sage.scores`. Every row r lies in block r / 2000, so the blocks cover both
  arrays and the arrays end holding those functions everywhere.
-/
import proofs.«173739_j57844619542595_1_alg».proof.Proof.Gen.KernelIdeal.Value
import proofs.«173739_j57844619542595_1_alg».proof.Proof.KernelBlock
import proofs.«173739_j57844619542595_1_alg».proof.Proof.HostPrefix
import proofs.«173739_j57844619542595_1_alg».proof.Proof.Spec

noncomputable section

namespace Cert.Sage.Kernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-! ## Where each window's block sits -/

/-- The printed index maps, decided over the 50 grid points: the four row-blocked windows (features, means, scores,
    hidden layer) sit at block row `t`, block column 0; the five whole-array windows at block (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

theorem point_lt (t : Fin cfg0.N) : t.val < 50 := by
  have h : t.val < grid0.N := t.isLt
  rwa [N_0] at h

/-- The array row that row `p` of block `t` is. -/
def nodeRow (t : Fin cfg0.N) (p : Fin 2000) : Fin 100000 :=
  ⟨t.val * 2000 + p.val, by have := point_lt t; have := p.isLt; omega⟩

theorem at_feat (t : Fin cfg0.N) (p : Fin 2000) (k : Fin 128) :
    ((cfg0.win 0).blk t).view.emb (ix2 p k) = ix2 (nodeRow t p) k := by
  obtain ⟨e0, e1, -⟩ := block_index t
  funext a; apply Fin.ext
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

theorem at_mean (t : Fin cfg0.N) (p : Fin 2000) (k : Fin 128) :
    ((cfg0.win 1).blk t).view.emb (ix2 p k) = ix2 (nodeRow t p) k := by
  obtain ⟨-, -, e0, e1, -⟩ := block_index t
  funext a; apply Fin.ext
  match a with
  | ⟨0, _⟩ => show win0_1.index t (0 : Fin 2) * 2000 + 1 * p.val = t.val * 2000 + p.val; rw [e0]; omega
  | ⟨1, _⟩ => show win0_1.index t (1 : Fin 2) * 128 + 1 * k.val = k.val; rw [e1]; omega

theorem at_scores (t : Fin cfg0.N) (p : Fin 2000) (c' : Fin 40) :
    ((cfg0.win 7).blk t).view.emb (ix2 p c') = ix2 (nodeRow t p) c' := by
  obtain ⟨-, -, -, -, -, -, -, -, -, -, -, -, -, -, e0, e1, -⟩ := block_index t
  funext a; apply Fin.ext
  match a with
  | ⟨0, _⟩ => show win0_7.index t (0 : Fin 2) * 2000 + 1 * p.val = t.val * 2000 + p.val; rw [e0]; omega
  | ⟨1, _⟩ => show win0_7.index t (1 : Fin 2) * 40 + 1 * c'.val = c'.val; rw [e1]; omega

theorem at_hidden (t : Fin cfg0.N) (p : Fin 2000) (q : Fin 128) :
    ((cfg0.win 8).blk t).view.emb (ix2 p q) = ix2 (nodeRow t p) q := by
  obtain ⟨-, -, -, -, -, -, -, -, -, -, -, -, -, -, -, -, e0, e1⟩ := block_index t
  funext a; apply Fin.ext
  match a with
  | ⟨0, _⟩ => show win0_8.index t (0 : Fin 2) * 2000 + 1 * p.val = t.val * 2000 + p.val; rw [e0]; omega
  | ⟨1, _⟩ => show win0_8.index t (1 : Fin 2) * 128 + 1 * q.val = q.val; rw [e1]; omega

/-! ## The loaded blocks, read off the arrays -/

/-- Row `p` of the feature block at point `t` is array row `nodeRow t p`. -/
theorem feat_block (c : Dev nD) (t : Fin cfg0.N) (p : Fin 2000) (k : Fin 128) :
    iblk m c 0 t (ix2 p k) = m ((c : Thread nD τ).loc main_arg0) (ix2 (nodeRow t p) k) := by
  show V m c main_arg0 (((cfg0.win 0).blk t).view.emb (ix2 p k)) = _
  rw [at_feat, V_main_arg0]

/-- Row `p` of the neighbourhood-mean block at point `t` is array row `nodeRow t p`. -/
theorem mean_block (c : Dev nD) (t : Fin cfg0.N) (p : Fin 2000) (k : Fin 128) :
    iblk m c 1 t (ix2 p k) = (V m c main_v18 : S100000x128.Idx → EReal) (ix2 (nodeRow t p) k) := by
  show V m c main_v18 (((cfg0.win 1).blk t).view.emb (ix2 p k)) = _
  rw [at_mean]

/-- The first weight matrix is loaded whole. -/
theorem wself_block (c : Dev nD) (t : Fin cfg0.N) :
    (iblk m c 2 t : S128x128.Idx → EReal) = m ((c : Thread nD τ).loc main_arg3) := by
  obtain ⟨-, -, -, -, e0, e1, -⟩ := block_index t
  funext y
  show V m c main_arg3 (((cfg0.win 2).blk t).view.emb y) = _
  have h : ((cfg0.win 2).blk t).view.emb y = y := by
    funext a; apply Fin.ext
    match a with
    | ⟨0, _⟩ => show win0_2.index t (0 : Fin 2) * 128 + 1 * (y 0).val = (y 0).val; rw [e0]; omega
    | ⟨1, _⟩ => show win0_2.index t (1 : Fin 2) * 128 + 1 * (y 1).val = (y 1).val; rw [e1]; omega
  rw [h, V_main_arg3]

/-- The second weight matrix is loaded whole. -/
theorem wneigh_block (c : Dev nD) (t : Fin cfg0.N) :
    (iblk m c 3 t : S128x128.Idx → EReal) = m ((c : Thread nD τ).loc main_arg4) := by
  obtain ⟨-, -, -, -, -, -, e0, e1, -⟩ := block_index t
  funext y
  show V m c main_arg4 (((cfg0.win 3).blk t).view.emb y) = _
  have h : ((cfg0.win 3).blk t).view.emb y = y := by
    funext a; apply Fin.ext
    match a with
    | ⟨0, _⟩ => show win0_3.index t (0 : Fin 2) * 128 + 1 * (y 0).val = (y 0).val; rw [e0]; omega
    | ⟨1, _⟩ => show win0_3.index t (1 : Fin 2) * 128 + 1 * (y 1).val = (y 1).val; rw [e1]; omega
  rw [h, V_main_arg4]

/-- The first bias row is loaded whole: its entry (0, q) is entry q of the bias vector. -/
theorem bias_hidden_block (c : Dev nD) (t : Fin cfg0.N) (q : Fin 128) :
    iblk m c 4 t (ix2 (0 : Fin 1) q) = m ((c : Thread nD τ).loc main_arg5) (ix1 q) := by
  obtain ⟨-, -, -, -, -, -, -, -, e0, e1, -⟩ := block_index t
  show V m c main_v19 (((cfg0.win 4).blk t).view.emb (ix2 (0 : Fin 1) q)) = _
  have h : ((cfg0.win 4).blk t).view.emb (ix2 (0 : Fin 1) q) = ix2 (0 : Fin 1) q := by
    funext a; apply Fin.ext
    match a with
    | ⟨0, _⟩ => show win0_4.index t (0 : Fin 2) * 1 + 1 * 0 = 0; rw [e0]
    | ⟨1, _⟩ => show win0_4.index t (1 : Fin 2) * 128 + 1 * q.val = q.val; rw [e1]; omega
  rw [h]
  exact Host.bias_hidden_apply m c q

/-- The classifier matrix is loaded whole. -/
theorem wpred_block (c : Dev nD) (t : Fin cfg0.N) :
    (iblk m c 5 t : S128x40.Idx → EReal) = m ((c : Thread nD τ).loc main_arg6) := by
  obtain ⟨-, -, -, -, -, -, -, -, -, -, e0, e1, -⟩ := block_index t
  funext y
  show V m c main_arg6 (((cfg0.win 5).blk t).view.emb y) = _
  have h : ((cfg0.win 5).blk t).view.emb y = y := by
    funext a; apply Fin.ext
    match a with
    | ⟨0, _⟩ => show win0_5.index t (0 : Fin 2) * 128 + 1 * (y 0).val = (y 0).val; rw [e0]; omega
    | ⟨1, _⟩ => show win0_5.index t (1 : Fin 2) * 40 + 1 * (y 1).val = (y 1).val; rw [e1]; omega
  rw [h, V_main_arg6]

/-- The second bias row is loaded whole: its entry (0, c') is entry c' of the bias vector. -/
theorem bias_scores_block (c : Dev nD) (t : Fin cfg0.N) (c' : Fin 40) :
    iblk m c 6 t (ix2 (0 : Fin 1) c') = m ((c : Thread nD τ).loc main_arg7) (ix1 c') := by
  obtain ⟨-, -, -, -, -, -, -, -, -, -, -, -, e0, e1, -⟩ := block_index t
  show V m c main_v20 (((cfg0.win 6).blk t).view.emb (ix2 (0 : Fin 1) c')) = _
  have h : ((cfg0.win 6).blk t).view.emb (ix2 (0 : Fin 1) c') = ix2 (0 : Fin 1) c' := by
    funext a; apply Fin.ext
    match a with
    | ⟨0, _⟩ => show win0_6.index t (0 : Fin 2) * 1 + 1 * 0 = 0; rw [e0]
    | ⟨1, _⟩ => show win0_6.index t (1 : Fin 2) * 40 + 1 * c'.val = c'.val; rw [e1]; omega
  rw [h]
  exact Host.bias_scores_apply m c c'

/-! ## The two whole-array functions -/

/-- The hidden layer of all nodes, from the launch memory. -/
abbrev hiddenOf (c : Dev nD) : S100000x128.Idx → EReal :=
  Sage.hidden (m ((c : Thread nD τ).loc main_arg0)) (V m c main_v18) (m ((c : Thread nD τ).loc main_arg3))
    (m ((c : Thread nD τ).loc main_arg4)) (m ((c : Thread nD τ).loc main_arg5))

/-- The class scores of all nodes, from the launch memory. -/
abbrev scoresOf (c : Dev nD) : S100000x40.Idx → EReal :=
  Sage.scores (hiddenOf m c) (m ((c : Thread nD τ).loc main_arg6)) (m ((c : Thread nD τ).loc main_arg7))

/-- The body's first stored value at row `p` of block `t` is the hidden layer at array row `nodeRow t p`. -/
theorem hidden_at_point (c : Dev nD) (t : Fin cfg0.N) (p : Fin 2000) (q : Fin 128) :
    k0_pay1 (F := Ideal) (iblk m c 0 t) (iblk m c 1 t) (iblk m c 2 t) (iblk m c 3 t) (iblk m c 4 t) (ix2 p q)
      = hiddenOf m c (ix2 (nodeRow t p) q) := by
  refine (Block.hidden_entry (iblk m c 0 t) (iblk m c 1 t) (iblk m c 2 t) (iblk m c 3 t) (iblk m c 4 t) p q).trans ?_
  rw [wself_block, wneigh_block, bias_hidden_block]
  simp only [feat_block, mean_block]
  rfl

/-- The body's second stored value at row `p` of block `t` is the class scores at array row `nodeRow t p`. -/
theorem scores_at_point (c : Dev nD) (t : Fin cfg0.N) (p : Fin 2000) (c' : Fin 40) :
    k0_pay2 (F := Ideal) (iblk m c 0 t) (iblk m c 1 t) (iblk m c 2 t) (iblk m c 3 t) (iblk m c 4 t) (iblk m c 5 t) (iblk m c 6 t) (ix2 p c')
      = scoresOf m c (ix2 (nodeRow t p) c') := by
  refine (Block.score_entry (iblk m c 0 t) (iblk m c 1 t) (iblk m c 2 t) (iblk m c 3 t) (iblk m c 4 t) (iblk m c 5 t) (iblk m c 6 t) p c').trans ?_
  rw [wpred_block, bias_scores_block]
  simp only [hidden_at_point]
  rfl

/-! ## What each point writes back -/

/-- Point `t` writes back block `t` of the hidden layer. -/
theorem flushed_hidden (c : Dev nD) (t : Fin cfg0.N) :
    (dats m 0 c).flushed 8 t = ((cfg0.win 8).blk t).view.read (Elt Ideal) (hiddenOf m c) := by
  rw [Value.flushed8]
  unfold out0_8
  rw [View.canon_unit_zero origin]
  simp only [View.ld_unit_zero (S := S2000x128) origin, View.ld_unit_zero (S := S128x128) origin, View.ld_unit_zero (S := S1x128) origin]
  funext j
  obtain ⟨p, q, rfl⟩ : ∃ (p : Fin 2000) (q : Fin 128), j = ix2 p q := ⟨j 0, j 1, eq_ix2 j⟩
  show k0_pay1 (F := Ideal) (iblk m c 0 t) (iblk m c 1 t) (iblk m c 2 t) (iblk m c 3 t) (iblk m c 4 t) (ix2 p q)
    = hiddenOf m c (((cfg0.win 8).blk t).view.emb (ix2 p q))
  rw [at_hidden]
  exact hidden_at_point m c t p q

/-- Point `t` writes back block `t` of the class scores. -/
theorem flushed_scores (c : Dev nD) (t : Fin cfg0.N) :
    (dats m 0 c).flushed 7 t = ((cfg0.win 7).blk t).view.read (Elt Ideal) (scoresOf m c) := by
  rw [Value.flushed7]
  unfold out0_7
  rw [View.canon_unit_zero origin]
  simp only [View.ld_unit_zero (S := S2000x128) origin, View.ld_unit_zero (S := S128x128) origin, View.ld_unit_zero (S := S1x128) origin,
    View.ld_unit_zero (S := S128x40) origin, View.ld_unit_zero (S := S1x40) origin]
  funext j
  obtain ⟨p, c', rfl⟩ : ∃ (p : Fin 2000) (c' : Fin 40), j = ix2 p c' := ⟨j 0, j 1, eq_ix2 j⟩
  show k0_pay2 (F := Ideal) (iblk m c 0 t) (iblk m c 1 t) (iblk m c 2 t) (iblk m c 3 t) (iblk m c 4 t) (iblk m c 5 t) (iblk m c 6 t) (ix2 p c')
    = scoresOf m c (((cfg0.win 7).blk t).view.emb (ix2 p c'))
  rw [at_scores]
  exact scores_at_point m c t p c'

/-! ## The blocks cover the arrays -/

theorem mem_hidden_block (t : Fin cfg0.N) (i : S100000x128.Idx) :
    i ∈ ((cfg0.win 8).blk t).view.set ↔ ∀ a : Fin 2, win0_8.index t a * S2000x128.size a ≤ (i a).val ∧ (i a).val < win0_8.index t a * S2000x128.size a + S2000x128.size a := by
  show i ∈ ((View.whole main_v21_1).slice (win0_8.rect t)).set ↔ _
  rw [View.set_slice_whole, Rect.mem_set_unit]
  exact Iff.rfl

theorem mem_scores_block (t : Fin cfg0.N) (i : S100000x40.Idx) :
    i ∈ ((cfg0.win 7).blk t).view.set ↔ ∀ a : Fin 2, win0_7.index t a * S2000x40.size a ≤ (i a).val ∧ (i a).val < win0_7.index t a * S2000x40.size a + S2000x40.size a := by
  show i ∈ ((View.whole main_v21_0).slice (win0_7.rect t)).set ↔ _
  rw [View.set_slice_whole, Rect.mem_set_unit]
  exact Iff.rfl

/-- The point whose block holds array row `r`. -/
def pointOf (r : Nat) (hr : r < 100000) : Fin cfg0.N :=
  ⟨r / 2000, by show r / 2000 < grid0.N; rw [N_0]; omega⟩

/-- Every entry of the hidden-layer array is in the block of the point its row belongs to. -/
theorem hidden_covered (i : S100000x128.Idx) :
    ∃ t : Fin cfg0.N, (cfg0.win 8).flush t = true ∧ i ∈ ((cfg0.win 8).blk t).view.set := by
  have hi0 : (i 0).val < 100000 := (i 0).isLt
  have hi1 : (i 1).val < 128 := (i 1).isLt
  obtain ⟨-, -, -, -, -, -, -, -, -, -, -, -, -, -, -, -, e0, e1⟩ := block_index (pointOf (i 0).val hi0)
  refine ⟨pointOf (i 0).val hi0, flush0_8 _, ?_⟩
  rw [mem_hidden_block]
  intro a
  match a with
  | ⟨0, _⟩ =>
    show win0_8.index (pointOf (i 0).val hi0) (0 : Fin 2) * 2000 ≤ (i 0).val ∧ (i 0).val < win0_8.index (pointOf (i 0).val hi0) (0 : Fin 2) * 2000 + 2000
    rw [e0]; show (i 0).val / 2000 * 2000 ≤ (i 0).val ∧ (i 0).val < (i 0).val / 2000 * 2000 + 2000; omega
  | ⟨1, _⟩ =>
    show win0_8.index (pointOf (i 0).val hi0) (1 : Fin 2) * 128 ≤ (i 1).val ∧ (i 1).val < win0_8.index (pointOf (i 0).val hi0) (1 : Fin 2) * 128 + 128
    rw [e1]; omega

/-- Every entry of the class-score array is in the block of the point its row belongs to. -/
theorem scores_covered (i : S100000x40.Idx) :
    ∃ t : Fin cfg0.N, (cfg0.win 7).flush t = true ∧ i ∈ ((cfg0.win 7).blk t).view.set := by
  have hi0 : (i 0).val < 100000 := (i 0).isLt
  have hi1 : (i 1).val < 40 := (i 1).isLt
  obtain ⟨-, -, -, -, -, -, -, -, -, -, -, -, -, -, e0, e1, -⟩ := block_index (pointOf (i 0).val hi0)
  refine ⟨pointOf (i 0).val hi0, flush0_7 _, ?_⟩
  rw [mem_scores_block]
  intro a
  match a with
  | ⟨0, _⟩ =>
    show win0_7.index (pointOf (i 0).val hi0) (0 : Fin 2) * 2000 ≤ (i 0).val ∧ (i 0).val < win0_7.index (pointOf (i 0).val hi0) (0 : Fin 2) * 2000 + 2000
    rw [e0]; show (i 0).val / 2000 * 2000 ≤ (i 0).val ∧ (i 0).val < (i 0).val / 2000 * 2000 + 2000; omega
  | ⟨1, _⟩ =>
    show win0_7.index (pointOf (i 0).val hi0) (1 : Fin 2) * 40 ≤ (i 1).val ∧ (i 1).val < win0_7.index (pointOf (i 0).val hi0) (1 : Fin 2) * 40 + 40
    rw [e1]; omega

/-! ## The arrays after the run -/

/-- The hidden-layer array ends holding `Sage.hidden` of the inputs. -/
theorem final_hidden (c : Dev nD) : (dats m 0 c).arrAt 8 cfg0.N = hiddenOf m c :=
  (dats m 0 c).arrAt_eq_of_cover 8 (hiddenOf m c) (fun t _ => flushed_hidden m c t) hidden_covered

/-- The class-score array ends holding `Sage.scores` of that. -/
theorem final_scores (c : Dev nD) : (dats m 0 c).arrAt 7 cfg0.N = scoresOf m c :=
  (dats m 0 c).arrAt_eq_of_cover 7 (scoresOf m c) (fun t _ => flushed_scores m c t) scores_covered

/-- Every weakly fair execution of the kernel's program ends with the two result arrays at the specification's
    functions of the launch memory — the neighbourhood mean being the reference's aggregation stage — and the
    arguments unchanged. -/
theorem run : θ_run defs (onTc (τ := τ) (main (F := Ideal))) ⟨m, fun _ => 0, ρ⟩ fun r => ∀ c : Dev nD,
      r.2.mem ((c : Thread nD τ).loc main_v21_0)
        = Sage.scores (Sage.hidden (m ((c : Thread nD τ).loc main_arg0))
            (Cert.ReferenceIdeal.Read.val_main_v18 (F := Ideal) (m ((c : Thread nD τ).loc main_arg0)) (m ((c : Thread nD τ).loc main_arg1)) (m ((c : Thread nD τ).loc main_arg2)))
            (m ((c : Thread nD τ).loc main_arg3)) (m ((c : Thread nD τ).loc main_arg4)) (m ((c : Thread nD τ).loc main_arg5)))
            (m ((c : Thread nD τ).loc main_arg6)) (m ((c : Thread nD τ).loc main_arg7))
      ∧ r.2.mem ((c : Thread nD τ).loc main_v21_1)
        = Sage.hidden (m ((c : Thread nD τ).loc main_arg0))
            (Cert.ReferenceIdeal.Read.val_main_v18 (F := Ideal) (m ((c : Thread nD τ).loc main_arg0)) (m ((c : Thread nD τ).loc main_arg1)) (m ((c : Thread nD τ).loc main_arg2)))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c =>
      ⟨(h c).1.trans ((final_scores m c).trans (by rw [← Host.mean_eq m c])),
       (h c).2.1.trans ((final_hidden m c).trans (by rw [← Host.mean_eq m c])),
       (h c).2.2⟩)
    (Value.run_blocks m ρ)

end Cert.Sage.Kernel

end
-- ==== Proof.lean ====
/- A mean-aggregating graph layer (own features through one dense layer, the in-neighbours' mean features through
   another, a bias and a rectifier) followed by a linear classifier, over 100000 nodes and 600000 edges: the kernel's
   program against the plain array program.

   Both programs form the in-neighbour mean on the host by the same operations (a gather along the edges' sources,
   scatter-adds along their targets, a division by the in-degree clamped at one); the kernel's program then runs the
   three matrix products, the biases and the rectifier in one launch over 50 blocks of 2000 nodes, where the
   reference applies them to the whole arrays. Over the extended reals a change of float format is the identity
   and a matrix product is the plain sum over its 128 contracted features, so both programs evaluate
       hidden[r, q] = max((Σ_k feat[r,k]·Ws[k,q] + Σ_k mean[r,k]·Wn[k,q]) + bn[q], 0)
       scores[r, c] = Σ_k hidden[r,k]·Wp[k,c] + bp[c]
   with the sums in the same order and the additions grouped alike: the two results are equal entry by entry
   without any law of arithmetic, and finiteness of the inputs is never used. The modules: Proof/Spec.lean (these
   two formulas), Proof/RefIsSpec.lean (the reference's stages are them), Proof/KernelBlock.lean (the kernel body's
   two stored values are them on one block), Proof/HostPrefix.lean (what the launch finds on the host),
   Proof/KernelValue.lean (the written blocks tile the two result arrays). The ideal pass rewrote nothing, so the
   idealized kernel is the kernel's own text and `preserves` has nothing to state. -/
import proofs.«173739_j57844619542595_1_alg».proof.Defs
import proofs.«173739_j57844619542595_1_alg».proof.Proof.Gen.Kernel
import proofs.«173739_j57844619542595_1_alg».proof.Proof.Gen.Kernel.Skeleton
import proofs.«173739_j57844619542595_1_alg».proof.Proof.Gen.Kernel.Launch
import proofs.«173739_j57844619542595_1_alg».proof.Proof.Gen.Kernel.Points
import proofs.«173739_j57844619542595_1_alg».proof.Proof.Gen.Kernel.Frame
import proofs.«173739_j57844619542595_1_alg».proof.Proof.Gen.KernelIdeal
import proofs.«173739_j57844619542595_1_alg».proof.Proof.Gen.KernelIdeal.Skeleton
import proofs.«173739_j57844619542595_1_alg».proof.Proof.Gen.KernelIdeal.Launch
import proofs.«173739_j57844619542595_1_alg».proof.Proof.Gen.KernelIdeal.Points
import proofs.«173739_j57844619542595_1_alg».proof.Proof.Gen.KernelIdeal.Frame
import proofs.«173739_j57844619542595_1_alg».proof.Proof.Gen.ReferenceIdeal
import proofs.«173739_j57844619542595_1_alg».proof.Proof.Gen.Pre_finite_inputs
import proofs.«173739_j57844619542595_1_alg».proof.Proof.Gen.KernelIdeal.Value
import proofs.«173739_j57844619542595_1_alg».proof.Proof.Gen.ReferenceIdeal.Run
import proofs.«173739_j57844619542595_1_alg».proof.Proof.Gen.ReferenceIdeal.Read
import proofs.«173739_j57844619542595_1_alg».proof.Proof.RefIsSpec
import proofs.«173739_j57844619542595_1_alg».proof.Proof.KernelValue
import Idealize.ShloMosaic.Adequacy
import Idealize.ShloMosaic.Init

noncomputable section

namespace Cert.Proof

open Idealize.ShloMosaic Idealize.SL.Sem

/-- The word-level kernel runs, faults nowhere and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run with the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories that agree on the eight arguments both programs end with the class scores at `Sage.scores` and the
    hidden layer at `Sage.hidden` of those arguments, the neighbourhood mean being the same aggregation stage of the
    same features and edges on both sides. -/
theorem algebraic : Cert.algebraic_KernelIdeal_ReferenceIdeal := by
  intro m ρ m' ρ' _ hagree
  refine ⟨_, _, Cert.Sage.Kernel.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v29_eq, Cert.Sage.Ref.scores_eq, Cert.Sage.Ref.hidden_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2]
  · rw [Cert.ReferenceIdeal.Read.val_main_v25_eq, Cert.Sage.Ref.hidden_eq,
      (hagree c).1, (hagree c).2.1, (hagree c).2.2.1, (hagree c).2.2.2.1, (hagree c).2.2.2.2.1, (hagree c).2.2.2.2.2.1]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
